-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S1024x128 : Shape := ⟨2, ![1024, 128]⟩
abbrev S128x32000 : Shape := ⟨2, ![128, 32000]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x32000 : S_.BroadcastsInDim S128x32000 (![] : Fin 0 → Fin S128x32000.rank)
  reducesTo_S128x32000_S_d0_1 : S128x32000.ReducesTo [0, 1] S_

variable [Facts]

def fn {F : FTy → Type} [FloatOps F] (main_arg0 : FVec F S8x512x1024 .f32) (main_arg1 : FVec F S1024x128 .f32) (main_arg2 : FVec F S128x32000 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x32000 .f32 := Host.absf main_arg2
  let main_cst_2 : FVec F S_ .f32 := constant S_ .f32 0x7F800000#32
  let main_v10 : FVec F S128x32000 .f32 := broadcastInDim S128x32000 ![] bcast_S_S128x32000 main_cst_2
  let main_v11 : IVec S128x32000 1 := cmpf .olt main_v9 main_v10
  let main_c_3 : IVec S_ 1 := constantI S_ 1 1#1
  let main_v12 : IVec S_ 1 := (fun x v => Host.reduce IntOp.andi x v reducesTo_S128x32000_S_d0_1 h_S_) main_v11 main_c_3
  let main_v13 : IVec S_ 1 := andi main_v8 main_v12
  main_v13
-- ==== Kernel.lean ====
abbrev S8x512x1024 : Shape := ⟨3, ![8, 512, 1024]⟩
abbrev S1024x128 : Shape := ⟨2, ![1024, 128]⟩
abbrev S128x32000 : Shape := ⟨2, ![128, 32000]⟩
abbrev S4096x1024 : Shape := ⟨2, ![4096, 1024]⟩
abbrev S4096x32000 : Shape := ⟨2, ![4096, 32000]⟩
abbrev S2048x1024 : Shape := ⟨2, ![2048, 1024]⟩
abbrev S128x1280 : Shape := ⟨2, ![128, 1280]⟩
abbrev S2048x1280 : Shape := ⟨2, ![2048, 1280]⟩
abbrev S2048x128 : Shape := ⟨2, ![2048, 128]⟩
abbrev S8x512x32000 : Shape := ⟨3, ![8, 512, 32000]⟩

abbrev nBuf : Space → Nat
  | .hbm => 6
  | .vmem => 8
  | .smem => 0
  | _ => 0

abbrev bufTy : (tb : Table) → Fin (tcTables nBuf tb) → BufTy
  | .hbm, ⟨0, _⟩ => ⟨S8x512x1024, .f32⟩
  | .hbm, ⟨1, _⟩ => ⟨S1024x128, .f32⟩
  | .hbm, ⟨2, _⟩ => ⟨S128x32000, .f32⟩
  | .hbm, ⟨3, _⟩ => ⟨S4096x1024, .f32⟩
  | .hbm, ⟨4, _⟩ => ⟨S4096x32000, .f32⟩
  | .hbm, ⟨5, _⟩ => ⟨S8x512x32000, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S128x1280, .f32⟩
  | .local _ .vmem, ⟨4, _⟩ => ⟨S128x1280, .f32⟩
  | .local _ .vmem, ⟨5, _⟩ => ⟨S2048x1280, .f32⟩
  | .local _ .vmem, ⟨6, _⟩ => ⟨S2048x1280, .f32⟩
  | .local _ .vmem, ⟨7, _⟩ => ⟨S2048x128, .bf16⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x1024_S4096x1024 : S8x512x1024.ShapeCasts S4096x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S128x1280_S128x1280_0_0 : ∀ a, (![0, 0] : Fin 2 → Nat) a + S128x1280.size a ≤ S128x1280.size a
  h_S128x1280 : 0 < S128x1280.numel
  inb_S2048x1280_S2048x1280_0_0 : ∀ a, (![0, 0] : Fin 2 → Nat) a + S2048x1280.size a ≤ S2048x1280.size a
  h_S2048x1280 : 0 < S2048x1280.numel
  shapeCasts_S4096x32000_S8x512x32000 : S4096x32000.ShapeCasts S8x512x32000
  dot_S2048x1024_S1024x128_S2048x128_1_0_0_1_n_n_wf : DotDims.WF S2048x1024 S1024x128 S2048x128 [1] [0] [0] [1] [] []
  dot_S2048x128_S128x1280_S2048x1280_1_0_0_1_n_n_wf : DotDims.WF S2048x128 S128x1280 S2048x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1280.size a ≤ S128x32000.size a
  hwx0_2 : ∀ i : grid0.Coords, EltTy.bits .f32 = 32 ∨ (Rect.block (s := S128x32000) S128x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1280.size a ≤ S4096x32000.size a
  hwx0_3 : ∀ i : grid0.Coords, EltTy.bits .f32 = 32 ∨ (Rect.block (s := S4096x32000) S2048x1280.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x1280_S2048x1280_1_0_0_1_n_n : DotDims S2048x128 S128x1280 S2048x1280 where
  lhsContracting := [1]
  rhsContracting := [0]
  lhsNonContracting := [0]
  rhsNonContracting := [1]
  lhsBatch := []
  rhsBatch := []
  wf := dot_S2048x128_S128x1280_S2048x1280_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S1024x128 : Shape := ⟨2, ![1024, 128]⟩
abbrev S128x32000 : Shape := ⟨2, ![128, 32000]⟩
abbrev S4096x1024 : Shape := ⟨2, ![4096, 1024]⟩
abbrev S4096x32000 : Shape := ⟨2, ![4096, 32000]⟩
abbrev S1024x1024 : Shape := ⟨2, ![1024, 1024]⟩
abbrev S128x640 : Shape := ⟨2, ![128, 640]⟩
abbrev S1024x640 : Shape := ⟨2, ![1024, 640]⟩
abbrev S8x512x32000 : Shape := ⟨3, ![8, 512, 32000]⟩

abbrev nBuf : Space → Nat
  | .hbm => 6
  | .vmem => 8
  | .smem => 0
  | _ => 0

abbrev bufTy : (tb : Table) → Fin (tcTables nBuf tb) → BufTy
  | .hbm, ⟨0, _⟩ => ⟨S8x512x1024, .f32⟩
  | .hbm, ⟨1, _⟩ => ⟨S1024x128, .f32⟩
  | .hbm, ⟨2, _⟩ => ⟨S128x32000, .f32⟩
  | .hbm, ⟨3, _⟩ => ⟨S4096x1024, .f32⟩
  | .hbm, ⟨4, _⟩ => ⟨S4096x32000, .f32⟩
  | .hbm, ⟨5, _⟩ => ⟨S8x512x32000, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S128x640, .f32⟩
  | .local _ .vmem, ⟨4, _⟩ => ⟨S128x640, .f32⟩
  | .local _ .vmem, ⟨5, _⟩ => ⟨S1024x640, .f32⟩
  | .local _ .vmem, ⟨6, _⟩ => ⟨S1024x640, .f32⟩
  | .local _ .vmem, ⟨7, _⟩ => ⟨S1024x128, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x1024_S4096x1024 : S8x512x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x640_S128x640_0_0 : ∀ a, (![0, 0] : Fin 2 → Nat) a + S128x640.size a ≤ S128x640.size a
  h_S128x640 : 0 < S128x640.numel
  inb_S1024x640_S1024x640_0_0 : ∀ a, (![0, 0] : Fin 2 → Nat) a + S1024x640.size a ≤ S1024x640.size a
  h_S1024x640 : 0 < S1024x640.numel
  shapeCasts_S4096x32000_S8x512x32000 : S4096x32000.ShapeCasts S8x512x32000
  dot_S1024x1024_S1024x128_S1024x128_1_0_0_1_n_n_wf : DotDims.WF S1024x1024 S1024x128 S1024x128 [1] [0] [0] [1] [] []
  dot_S1024x128_S128x640_S1024x640_1_0_0_1_n_n_wf : DotDims.WF S1024x128 S128x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x640.size a ≤ S128x32000.size a
  hwx0_2 : ∀ i : grid0.Coords, EltTy.bits .f32 = 32 ∨ (Rect.block (s := S128x32000) S128x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S4096x32000.size a
  hwx0_3 : ∀ i : grid0.Coords, EltTy.bits .f32 = 32 ∨ (Rect.block (s := S4096x32000) S1024x640.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x640_S1024x640_1_0_0_1_n_n : DotDims S1024x128 S128x640 S1024x640 where
  lhsContracting := [1]
  rhsContracting := [0]
  lhsNonContracting := [0]
  rhsNonContracting := [1]
  lhsBatch := []
  rhsBatch := []
  wf := dot_S1024x128_S128x640_S1024x640_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KPieces.lean ====
/-
  What one run of the kernel body leaves behind, read back as values. The body has two cases. At a grid point that starts
  a row tile (inner coordinate 0) it computes the bottleneck projection `h = x_blk · w_dense` of the tile's rows, stores it
  whole into the scratch, reads it back, and stores `h · w_out_blk` whole into the output block. At every other point it
  stores `s · w_out_blk` into the output block, where `s` is what the scratch already held, and leaves the scratch alone.
  Each store covers its buffer, so what the buffer ends holding is the one stored value.
-/
import proofs.«179955_g2000605752815823_pallasbulk_1286_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-- A point that starts a row tile leaves the bottleneck projection of its `x` block in the scratch. -/
theorem scratch_A (c : Dev nD) (i : grid0.Coords) (a2 : Memref sig .tc .vmem S2048x1024 .f32) (h2 : a2.IsWhole)
    (a3 : Memref sig .tc .vmem S1024x128 .f32) (h3 : a3.IsWhole) (a4 : Memref sig .tc .vmem S128x1280 .f32) (h4 : a4.IsWhole)
    (a5 : Memref sig .tc .vmem S2048x1280 .f32) (h5 : a5.IsWhole) (a6 : Memref sig .tc .vmem S2048x128 .bf16) (h6 : a6.IsWhole)
    (hc : cond0_0 i) (x0 : Vec F S2048x1024 .f32) (x1 : Vec F S1024x128 .f32) (x2 : Vec F S128x1280 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S2048x1024) hz,
    View.ld_unit_zero (S := S1024x128) hz]

/-- The same point leaves in the output block the product of that projection, read back from the scratch, with its
    block of `w_out`. -/
theorem out_A (c : Dev nD) (i : grid0.Coords) (a2 : Memref sig .tc .vmem S2048x1024 .f32) (h2 : a2.IsWhole)
    (a3 : Memref sig .tc .vmem S1024x128 .f32) (h3 : a3.IsWhole) (a4 : Memref sig .tc .vmem S128x1280 .f32) (h4 : a4.IsWhole)
    (a5 : Memref sig .tc .vmem S2048x1280 .f32) (h5 : a5.IsWhole) (a6 : Memref sig .tc .vmem S2048x128 .bf16) (h6 : a6.IsWhole)
    (hc : cond0_0 i) (x0 : Vec F S2048x1024 .f32) (x1 : Vec F S1024x128 .f32) (x2 : Vec F S128x1280 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S2048x128) _ hz,
    View.ld_unit_zero (S := S2048x1024) hz, View.ld_unit_zero (S := S1024x128) hz, View.ld_unit_zero (S := S128x1280) hz]

/-- Any other point leaves in the output block the product of what the scratch held with its block of `w_out`. -/
theorem out_B (c : Dev nD) (i : grid0.Coords) (a2 : Memref sig .tc .vmem S2048x1024 .f32) (h2 : a2.IsWhole)
    (a3 : Memref sig .tc .vmem S1024x128 .f32) (h3 : a3.IsWhole) (a4 : Memref sig .tc .vmem S128x1280 .f32) (h4 : a4.IsWhole)
    (a5 : Memref sig .tc .vmem S2048x1280 .f32) (h5 : a5.IsWhole) (a6 : Memref sig .tc .vmem S2048x128 .bf16) (h6 : a6.IsWhole)
    (hc : ¬cond0_0 i) (x0 : Vec F S2048x1024 .f32) (x1 : Vec F S1024x128 .f32) (x2 : Vec F S128x1280 .f32)
    (xs : Vec F S2048x128 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S2048x128) hz,
    View.ld_unit_zero (S := S128x1280) hz]

end Cert.KernelIdeal.Pieces

end
-- ==== Proof.KPay.lean ====
/-
  The body's two stored values read at an entry, over the extended reals. Both are matrix products accumulated into a
  zero block, contracting the left operand's columns with the right operand's rows; a change of float format is the
  identity on extended reals and a reshape to the same shape is the identity. So entry `(p, k)` of the first is
  `∑ l, x(p, l) · w_dense(l, k)` and entry `(p, q)` of the second is `∑ k, s(p, k) · w_out(k, q)`.
-/
import proofs.«179955_g2000605752815823_pallasbulk_1286_2_alg».proof.Proof.Gen.KernelIdeal.Skeleton
import Idealize.ShloMosaic.Lib.ValueIdx
import Idealize.ShloMosaic.Lib.KernelVsHost
import Idealize.ShloMosaic.Lib.StackMember
import Idealize.ShloMosaic.Lib.Pipeline.Value

noncomputable section

open Idealize.ShloMosaic Idealize.ShloMosaic.ValueIdx Idealize.ShloMosaic.StackMember

namespace Cert.KernelIdeal.Pay

open Cert.KernelIdeal Cert.KernelIdeal.Gen

/-- Both products have the plain dimension numbers: rows × contraction by contraction × columns, no batch axis. -/
theorem dot1_eq : dot_S2048x1024_S1024x128_S2048x128_1_0_0_1_n_n = DotDims.plain 2048 1024 128 := rfl
theorem dot2_eq : dot_S2048x128_S128x1280_S2048x1280_1_0_0_1_n_n = DotDims.plain 2048 128 1280 := rfl

/-- The bottleneck projection of a block of rows, at an entry: the sum over the hidden axis. -/
theorem pay1_apply (x0 : FVec Ideal S2048x1024 .f32) (x1 : FVec Ideal S1024x128 .f32) (p : Fin 2048) (k : Fin 128) :
    k0_pay1 (F := Ideal) x0 x1 (ix2 p k) = ∑ l : Fin 1024, x0 (ix2 p l) * x1 (ix2 l k) := by
  unfold k0_pay1
  simp only [shapeCast_self, truncf_apply]
  rw [dot1_eq, matmul_zero_eq_dotGeneral]
  exact dotGeneral_plain_apply none _ _ p k

/-- The vocabulary projection of a block, at an entry: the sum over the bottleneck axis. -/
theorem pay2_apply (h : FVec Ideal S2048x128 .bf16) (x2 : FVec Ideal S128x1280 .f32) (p : Fin 2048) (q : Fin 1280) :
    k0_pay2 (F := Ideal) h x2 (ix2 p q) = ∑ k : Fin 128, h (ix2 p k) * x2 (ix2 k q) := by
  unfold k0_pay2
  rw [dot2_eq, matmul_zero_eq_dotGeneral]
  exact dotGeneral_plain_apply none _ _ p q

end Cert.KernelIdeal.Pay

end
-- ==== Proof.Spec.lean ====
/-
  The function both programs compute, over the extended reals: the factorized output projection
  `(x · w_dense) · w_out` of the 4096 rows of `x`, first onto the 128-wide bottleneck and then onto the 32000-wide
  vocabulary, each entry a finite sum of products in the order the contraction axis is indexed. It is stated entry by
  entry over the three arrays and mentions no program.
-/
import Idealize.ShloMosaic.PureOps.Ideal
import Idealize.ShloMosaic.Lib.ValueIdx

noncomputable section

open Idealize.ShloMosaic Idealize.ShloMosaic.ValueIdx

namespace Cert.Spec

/-- The bottleneck projection of row `r`: entry `k` of `x · w_dense`, the sum over the hidden axis. -/
def hid (x : FVec Ideal ⟨2, ![4096, 1024]⟩ .f32) (wd : FVec Ideal ⟨2, ![1024, 128]⟩ .f32) (r : Fin 4096) (k : Fin 128) : EReal :=
  ∑ l : Fin 1024, x (ix2 r l) * wd (ix2 l k)

/-- The vocabulary projection: entry `(r, v)` of `(x · w_dense) · w_out`, the sum over the bottleneck axis of the
    bottleneck projection's entries times `w_out`'s. -/
def logits (x : FVec Ideal ⟨2, ![4096, 1024]⟩ .f32) (wd : FVec Ideal ⟨2, ![1024, 128]⟩ .f32)
    (wo : FVec Ideal ⟨2, ![128, 32000]⟩ .f32) : FVec Ideal ⟨2, ![4096, 32000]⟩ .f32 :=
  fun i => ∑ k : Fin 128, hid x wd (i 0) k * wo (ix2 k (i 1))

/-- The vocabulary projection at an entry named by its row and column. -/
theorem logits_apply (x : FVec Ideal ⟨2, ![4096, 1024]⟩ .f32) (wd : FVec Ideal ⟨2, ![1024, 128]⟩ .f32)
    (wo : FVec Ideal ⟨2, ![128, 32000]⟩ .f32) (r : Fin 4096) (v : Fin 32000) :
    logits x wd wo (ix2 r v) = ∑ k : Fin 128, hid x wd r k * wo (ix2 k v) := rfl

end Cert.Spec

end
-- ==== Proof.KInv.lean ====
/-
  What the scratch and the output block hold after each grid point. The grid is row tiles × vocabulary tiles with the
  vocabulary tile moving fastest, so point `t` works on row tile `t / 25` and vocabulary tile `t % 25`: its block of `x`
  is rows `t / 25 · 2048 …` of the flattened `x`, its block of `w_dense` is all of it, its block of `w_out` is columns
  `t % 25 · 1280 …`. The scratch is written only at the first point of a row tile and carried through the tile's other
  points, during which the tile's rows do not change; so after EVERY point it holds the bottleneck projection of the
  point's own row tile (induction on the point), and the output block is always the scratch times the point's block of
  `w_out`.
-/
import proofs.«179955_g2000605752815823_pallasbulk_1286_2_alg».proof.Proof.KPieces
import proofs.«179955_g2000605752815823_pallasbulk_1286_2_alg».proof.Proof.KPay
import proofs.«179955_g2000605752815823_pallasbulk_1286_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen

variable (m : (ℓ : Loc nD τ sig) → Buf (Elt Ideal) ℓ)

/-- The three arrays as the region finds them, and each window's block at a point, at their literal shapes. -/
abbrev xarr (c : Dev nD) : FVec Ideal S4096x1024 .f32 := V m c main_v0
abbrev darr (c : Dev nD) : FVec Ideal S1024x128 .f32 := V m c main_arg1
abbrev oarr (c : Dev nD) : FVec Ideal S128x32000 .f32 := V m c main_arg2
abbrev xblk (c : Dev nD) (t : Fin cfg0.N) : FVec Ideal S2048x1024 .f32 := iblk m c 0 t
abbrev dblk (c : Dev nD) (t : Fin cfg0.N) : FVec Ideal S1024x128 .f32 := iblk m c 1 t
abbrev oblk (c : Dev nD) (t : Fin cfg0.N) : FVec Ideal S128x1280 .f32 := iblk m c 2 t

/-- The index maps, decided over the grid: `x` follows the row tile, `w_dense` stays, `w_out` follows the vocabulary
    tile, the output follows both. -/
theorem idx_facts : ∀ t : Fin cfg0.N, win0_0.index t (0 : Fin 2) = t.val / 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = t.val % 25 :=
  (by decide +kernel : ∀ t : Fin grid0.N, _)

/-- Row `p` of the point's block of `x` is row `t / 25 · 2048 + p` of `x`. -/
theorem xblk_apply (c : Dev nD) (t : Fin cfg0.N) (p : Fin 2048) (l : Fin 1024) (r : Fin 4096)
    (hr : r.val = t.val / 25 * 2048 + p.val) : xblk m c t (ix2 p l) = xarr m c (ix2 r l) := by
  obtain ⟨e0, e1, -⟩ := idx_facts t
  show V m c main_v0 (((cfg0.win 0).blk t).view.emb (ix2 p l)) = V m c main_v0 (ix2 r l)
  refine congrArg _ ?_
  funext a; apply Fin.ext
  match a with
  | ⟨0, _⟩ => show win0_0.index t (0 : Fin 2) * 2048 + 1 * p.val = r.val; omega
  | ⟨1, _⟩ => show win0_0.index t (1 : Fin 2) * 1024 + 1 * l.val = l.val; omega

/-- The point's block of `w_dense` is `w_dense`. -/
theorem dblk_apply (c : Dev nD) (t : Fin cfg0.N) (l : Fin 1024) (k : Fin 128) : dblk m c t (ix2 l k) = darr m c (ix2 l k) := by
  obtain ⟨-, -, e0, e1, -⟩ := idx_facts t
  show V m c main_arg1 (((cfg0.win 1).blk t).view.emb (ix2 l k)) = V m c main_arg1 (ix2 l k)
  refine congrArg _ ?_
  funext a; apply Fin.ext
  match a with
  | ⟨0, _⟩ => show win0_1.index t (0 : Fin 2) * 1024 + 1 * l.val = l.val; omega
  | ⟨1, _⟩ => show win0_1.index t (1 : Fin 2) * 128 + 1 * k.val = k.val; omega

/-- Column `q` of the point's block of `w_out` is column `t % 25 · 1280 + q` of `w_out`. -/
theorem oblk_apply (c : Dev nD) (t : Fin cfg0.N) (k : Fin 128) (q : Fin 1280) (v : Fin 32000)
    (hv : v.val = t.val % 25 * 1280 + q.val) : oblk m c t (ix2 k q) = oarr m c (ix2 k v) := by
  obtain ⟨-, -, -, -, e0, e1, -⟩ := idx_facts t
  show V m c main_arg2 (((cfg0.win 2).blk t).view.emb (ix2 k q)) = V m c main_arg2 (ix2 k v)
  refine congrArg _ ?_
  funext a; apply Fin.ext
  match a with
  | ⟨0, _⟩ => show win0_2.index t (0 : Fin 2) * 128 + 1 * k.val = k.val; omega
  | ⟨1, _⟩ => show win0_2.index t (1 : Fin 2) * 1280 + 1 * q.val = v.val; omega

/-- At a point that starts a row tile the scratch is left holding the bottleneck projection of that tile's rows. -/
theorem scratch_first (c : Dev nD) (t : Fin cfg0.N) (h0 : t.val % 25 = 0) (p : Fin 2048) (k : Fin 128) (r : Fin 4096)
    (hr : r.val = t.val / 25 * 2048 + p.val) :
    (outsAt0 m c t.val t.isLt).2 (ix2 p k) = Spec.hid (xarr m c) (darr m c) r k := by
  rw [outsAt0_A m c t h0]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)) (ix2 p k)).trans ?_
  refine (Pay.pay1_apply (xblk m c t) (dblk m c t) p k).trans ?_
  unfold Spec.hid
  refine Finset.sum_congr rfl fun l _ => ?_
  rw [xblk_apply m c t p l r hr, dblk_apply m c t l k]

/-- After every point the scratch holds the bottleneck projection of the point's row tile: a point that starts a tile
    stores it, every other point keeps what the point before left, and the tile has not changed. -/
theorem scratch_eq (c : Dev nD) : ∀ (n : ℕ) (h : n < cfg0.N) (p : Fin 2048) (k : Fin 128) (r : Fin 4096),
    r.val = n / 25 * 2048 + p.val → (outsAt0 m c n h).2 (ix2 p k) = Spec.hid (xarr m c) (darr m c) r k := by
  intro n
  induction n with
  | zero => intro h p k r hr; exact scratch_first m c ⟨0, h⟩ rfl p k r hr
  | succ n ih =>
    intro h p k r hr
    by_cases h0 : (n + 1) % 25 = 0
    · exact scratch_first m c ⟨n + 1, h⟩ h0 p k r hr
    · rw [outsAt0_B m c ⟨n + 1, h⟩ h0]
      dsimp only
      unfold sout0_B_0
      exact ih _ p k r (by omega)

/-- At every point the output block is the product of the scratch as the point leaves it with the point's block of
    `w_out`. -/
theorem out_eq (c : Dev nD) (t : Fin cfg0.N) :
    (outsAt0 m c t.val t.isLt).1 = k0_pay2 (F := Ideal) (outsAt0 m c t.val t.isLt).2 (oblk m c t) := by
  by_cases h0 : t.val % 25 = 0
  · rw [outsAt0_A m c t h0]
    dsimp only
    rw [Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)]
    exact Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)
  · rw [outsAt0_B m c t h0]
    dsimp only
    unfold sout0_B_0
    exact Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (dblk m c t) (oblk m c t) _

end Cert.KernelIdeal.Inv

end
-- ==== Proof.KFinal.lean ====
/-
  From the blocks to the program's result. Each point writes back block `(t / 25, t % 25)` of the logits of the arrays
  the region finds; those blocks tile the 4096 × 32000 array, so it ends holding the logits. The region finds `x`
  flattened to 4096 rows by the reshape in front of it and the two weight arrays as launched; the reshape behind it
  regroups the rows. So the program's result is the logits of the argument arrays between those two reshapes.
-/
import proofs.«179955_g2000605752815823_pallasbulk_1286_2_alg».proof.Proof.KInv
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Inv

variable (m : (ℓ : Loc nD τ sig) → Buf (Elt Ideal) ℓ) (ρ : Dev nD → PrngReg)

/-- The logits of the arrays as the region finds them. -/
abbrev G (c : Dev nD) : FVec Ideal S4096x32000 .f32 := Spec.logits (xarr m c) (darr m c) (oarr m c)

/-- What point `t` writes back is block `t` of the logits: entry `(p, q)` of the block is entry
    `(t / 25 · 2048 + p, t % 25 · 1280 + q)` of the array, the sum over the bottleneck axis of the scratch's row `p`
    — the bottleneck projection of that row — times column `q` of the point's block of `w_out`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, out_eq]
  have hN : t.val < 50 := lt_of_lt_of_eq t.isLt (show cfg0.N = 50 from N_0)
  obtain ⟨-, -, -, -, -, -, e0, e1⟩ := idx_facts t
  funext j
  obtain ⟨p, q, rfl⟩ : ∃ (p : Fin 2048) (q : Fin 1280), j = ix2 p q := ⟨j 0, j 1, eq_ix2 j⟩
  have hr : t.val / 25 * 2048 + p.val < 4096 := by omega
  have hv : t.val % 25 * 1280 + q.val < 32000 := by omega
  have he : ((cfg0.win 3).blk t).view.emb (ix2 p q) = ix2 (⟨t.val / 25 * 2048 + p.val, hr⟩ : Fin 4096) (⟨t.val % 25 * 1280 + q.val, hv⟩ : Fin 32000) := by
    funext a; apply Fin.ext
    match a with
    | ⟨0, _⟩ => show win0_3.index t (0 : Fin 2) * 2048 + 1 * p.val = t.val / 25 * 2048 + p.val; omega
    | ⟨1, _⟩ => show win0_3.index t (1 : Fin 2) * 1280 + 1 * q.val = t.val % 25 * 1280 + q.val; omega
  show k0_pay2 (F := Ideal) (outsAt0 m c t.val t.isLt).2 (oblk m c t) (ix2 p q) = G m c (((cfg0.win 3).blk t).view.emb (ix2 p q))
  rw [he, Pay.pay2_apply]
  show _ = ∑ k : Fin 128, Spec.hid (xarr m c) (darr m c) ⟨t.val / 25 * 2048 + p.val, hr⟩ k * oarr m c (ix2 k ⟨t.val % 25 * 1280 + q.val, hv⟩)
  refine Finset.sum_congr rfl fun k _ => ?_
  rw [scratch_eq m c t.val t.isLt p k ⟨t.val / 25 * 2048 + p.val, hr⟩ rfl, oblk_apply m c t k q ⟨t.val % 25 * 1280 + q.val, hv⟩ rfl]

/-- An index of the array is in point `t`'s block iff each coordinate is in the block's range on its axis. -/
theorem mem_blk (t : Fin cfg0.N) (i : S4096x32000.Idx) :
    i ∈ ((cfg0.win 3).blk t).view.set ↔ ∀ a : Fin 2, win0_3.index t a * S2048x1280.size a ≤ (i a).val ∧ (i a).val < win0_3.index t a * S2048x1280.size a + S2048x1280.size a := by
  show i ∈ ((View.whole main_v1).slice (win0_3.rect t)).set ↔ _
  rw [View.set_slice_whole, Rect.mem_set_unit]
  exact Iff.rfl

/-- The blocks tile the array: entry `(r, v)` is in the block of the point `(r / 2048) · 25 + v / 1280`. -/
theorem cover (i : S4096x32000.Idx) : ∃ t : Fin cfg0.N, (cfg0.win 3).flush t = true ∧ i ∈ ((cfg0.win 3).blk t).view.set := by
  have hi0 : (i 0).val < 4096 := (i 0).isLt
  have hi1 : (i 1).val < 32000 := (i 1).isLt
  have hN : cfg0.N = 50 := N_0
  have hlt : (i 0).val / 2048 * 25 + (i 1).val / 1280 < cfg0.N := by rw [hN]; omega
  refine ⟨⟨(i 0).val / 2048 * 25 + (i 1).val / 1280, hlt⟩, flush0_3 _, ?_⟩
  rw [mem_blk]
  obtain ⟨-, -, -, -, -, -, e0, e1⟩ := idx_facts ⟨(i 0).val / 2048 * 25 + (i 1).val / 1280, hlt⟩
  dsimp only at e0 e1
  intro a
  match a with
  | ⟨0, _⟩ =>
    show win0_3.index ⟨(i 0).val / 2048 * 25 + (i 1).val / 1280, hlt⟩ (0 : Fin 2) * 2048 ≤ (i 0).val ∧ (i 0).val < win0_3.index ⟨(i 0).val / 2048 * 25 + (i 1).val / 1280, hlt⟩ (0 : Fin 2) * 2048 + 2048
    omega
  | ⟨1, _⟩ =>
    show win0_3.index ⟨(i 0).val / 2048 * 25 + (i 1).val / 1280, hlt⟩ (1 : Fin 2) * 1280 ≤ (i 1).val ∧ (i 1).val < win0_3.index ⟨(i 0).val / 2048 * 25 + (i 1).val / 1280, hlt⟩ (1 : Fin 2) * 1280 + 1280
    omega

/-- So the region's result array ends holding the logits. -/
theorem final (c : Dev nD) : (dats m 0 c).arrAt 3 cfg0.N = G m c :=
  (dats m 0 c).arrAt_eq_of_cover 3 (G m c) (fun t _ => flushed_eq m c t) cover

/-- The region finds `x` flattened to its rows by the reshape in front of it. -/
theorem xarr_eq (c : Dev nD) : xarr m c = shapeCast S4096x1024 (m ((c : Thread nD τ).loc main_arg0)) shapeCasts_S8x512x1024_S4096x1024 := by
  show StableHlo.after hostOps0 (fun b => m (c, b)) (Proc.devRef .tc main_v0) = _
  after_results
  rfl

/-- The reshape behind the region regroups the rows of what the region left. -/
theorem tail_eq (c : Dev nD) : Pipeline.afterTail₀ cfgs (dats m) 0 (V0 m) [hostOps1] c main_v2
    = shapeCast S8x512x32000 (G m c) shapeCasts_S4096x32000_S8x512x32000 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1) = G m c :=
    (Pipeline.withArrays_arr spec0 launch0.win.arr_inj c _ _ 3).trans (final m c)
  rw [hw]
  rfl

/-- The logits of the argument arrays, laid out as the program returns them: `x` flattened to its rows, the two
    projections, the rows regrouped. -/
abbrev result (c : Dev nD) : Buf (Elt Ideal) ((c : Thread nD τ).loc main_v2) :=
  shapeCast S8x512x32000 (Spec.logits (shapeCast S4096x1024 (m ((c : Thread nD τ).loc main_arg0)) shapeCasts_S8x512x1024_S4096x1024)
    (m ((c : Thread nD τ).loc main_arg1)) (m ((c : Thread nD τ).loc main_arg2))) shapeCasts_S4096x32000_S8x512x32000

/-- The arrays the region finds, in terms of the arguments. -/
theorem G_eq (c : Dev nD) : shapeCast S8x512x32000 (G m c) shapeCasts_S4096x32000_S8x512x32000 = result m c := by
  show shapeCast S8x512x32000 (Spec.logits (xarr m c) (darr m c) (oarr m c)) _ = _
  rw [xarr_eq, show darr m c = m ((c : Thread nD τ).loc main_arg1) from V_main_arg1 m c,
    show oarr m c = m ((c : Thread nD τ).loc main_arg2) from V_main_arg2 m c]

/-- The run, read: the result at the logits of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans ((tail_eq m c).trans (G_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RPieces.lean ====
/-
  What one run of the kernel body leaves behind, read back as values. The body has two cases. At a grid point that starts
  a row tile (inner coordinate 0) it computes the bottleneck projection `h = x_blk · w_dense` of the tile's rows, stores it
  whole into the scratch, reads it back, and stores `h · w_out_blk` whole into the output block. At every other point it
  stores `s · w_out_blk` into the output block, where `s` is what the scratch already held, and leaves the scratch alone.
  Each store covers its buffer, so what the buffer ends holding is the one stored value.
-/
import proofs.«179955_g2000605752815823_pallasbulk_1286_2_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Pieces

open Cert.ReferenceIdeal Cert.ReferenceIdeal.Gen

variable {F : FTy → Type} [FloatOps F]

/-- Every store and load of the body starts at the origin of its buffer. -/
theorem hz : (![0, 0] : Fin 2 → Nat) = fun _ => 0 := funext fun a => by fin_cases a <;> rfl

/-- A point that starts a row tile leaves the bottleneck projection of its `x` block in the scratch. -/
theorem scratch_A (c : Dev nD) (i : grid0.Coords) (a2 : Memref sig .tc .vmem S1024x1024 .f32) (h2 : a2.IsWhole)
    (a3 : Memref sig .tc .vmem S1024x128 .f32) (h3 : a3.IsWhole) (a4 : Memref sig .tc .vmem S128x640 .f32) (h4 : a4.IsWhole)
    (a5 : Memref sig .tc .vmem S1024x640 .f32) (h5 : a5.IsWhole) (a6 : Memref sig .tc .vmem S1024x128 .f32) (h6 : a6.IsWhole)
    (hc : cond0_0 i) (x0 : Vec F S1024x1024 .f32) (x1 : Vec F S1024x128 .f32) (x2 : Vec F S128x640 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz,
    View.ld_unit_zero (S := S1024x128) hz]

/-- The same point leaves in the output block the product of that projection, read back from the scratch, with its
    block of `w_out`. -/
theorem out_A (c : Dev nD) (i : grid0.Coords) (a2 : Memref sig .tc .vmem S1024x1024 .f32) (h2 : a2.IsWhole)
    (a3 : Memref sig .tc .vmem S1024x128 .f32) (h3 : a3.IsWhole) (a4 : Memref sig .tc .vmem S128x640 .f32) (h4 : a4.IsWhole)
    (a5 : Memref sig .tc .vmem S1024x640 .f32) (h5 : a5.IsWhole) (a6 : Memref sig .tc .vmem S1024x128 .f32) (h6 : a6.IsWhole)
    (hc : cond0_0 i) (x0 : Vec F S1024x1024 .f32) (x1 : Vec F S1024x128 .f32) (x2 : Vec F S128x640 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.readCov_unit_zero (S := S1024x128) _ hz,
    View.ld_unit_zero (S := S1024x1024) hz, View.ld_unit_zero (S := S1024x128) hz, View.ld_unit_zero (S := S128x640) hz]

/-- Any other point leaves in the output block the product of what the scratch held with its block of `w_out`. -/
theorem out_B (c : Dev nD) (i : grid0.Coords) (a2 : Memref sig .tc .vmem S1024x1024 .f32) (h2 : a2.IsWhole)
    (a3 : Memref sig .tc .vmem S1024x128 .f32) (h3 : a3.IsWhole) (a4 : Memref sig .tc .vmem S128x640 .f32) (h4 : a4.IsWhole)
    (a5 : Memref sig .tc .vmem S1024x640 .f32) (h5 : a5.IsWhole) (a6 : Memref sig .tc .vmem S1024x128 .f32) (h6 : a6.IsWhole)
    (hc : ¬cond0_0 i) (x0 : Vec F S1024x1024 .f32) (x1 : Vec F S1024x128 .f32) (x2 : Vec F S128x640 .f32)
    (xs : Vec F S1024x128 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S1024x128) hz,
    View.ld_unit_zero (S := S128x640) hz]

end Cert.ReferenceIdeal.Pieces

end
-- ==== Proof.RPay.lean ====
/-
  The body's two stored values read at an entry, over the extended reals. Both are matrix products accumulated into a
  zero block, contracting the left operand's columns with the right operand's rows; a change of float format is the
  identity on extended reals and a reshape to the same shape is the identity. So entry `(p, k)` of the first is
  `∑ l, x(p, l) · w_dense(l, k)` and entry `(p, q)` of the second is `∑ k, s(p, k) · w_out(k, q)`.
-/
import proofs.«179955_g2000605752815823_pallasbulk_1286_2_alg».proof.Proof.Gen.ReferenceIdeal.Skeleton
import Idealize.ShloMosaic.Lib.ValueIdx
import Idealize.ShloMosaic.Lib.KernelVsHost
import Idealize.ShloMosaic.Lib.StackMember
import Idealize.ShloMosaic.Lib.Pipeline.Value

noncomputable section

open Idealize.ShloMosaic Idealize.ShloMosaic.ValueIdx Idealize.ShloMosaic.StackMember

namespace Cert.ReferenceIdeal.Pay

open Cert.ReferenceIdeal Cert.ReferenceIdeal.Gen

/-- Both products have the plain dimension numbers: rows × contraction by contraction × columns, no batch axis. -/
theorem dot1_eq : dot_S1024x1024_S1024x128_S1024x128_1_0_0_1_n_n = DotDims.plain 1024 1024 128 := rfl
theorem dot2_eq : dot_S1024x128_S128x640_S1024x640_1_0_0_1_n_n = DotDims.plain 1024 128 640 := rfl

/-- The bottleneck projection of a block of rows, at an entry: the sum over the hidden axis. -/
theorem pay1_apply (x0 : FVec Ideal S1024x1024 .f32) (x1 : FVec Ideal S1024x128 .f32) (p : Fin 1024) (k : Fin 128) :
    k0_pay1 (F := Ideal) x0 x1 (ix2 p k) = ∑ l : Fin 1024, x0 (ix2 p l) * x1 (ix2 l k) := by
  unfold k0_pay1
  simp only [shapeCast_self, truncf_apply]
  rw [dot1_eq, matmul_zero_eq_dotGeneral]
  exact dotGeneral_plain_apply none _ _ p k

/-- The vocabulary projection of a block, at an entry: the sum over the bottleneck axis. -/
theorem pay2_apply (h : FVec Ideal S1024x128 .f32) (x2 : FVec Ideal S128x640 .f32) (p : Fin 1024) (q : Fin 640) :
    k0_pay2 (F := Ideal) h x2 (ix2 p q) = ∑ k : Fin 128, h (ix2 p k) * x2 (ix2 k q) := by
  unfold k0_pay2
  rw [dot2_eq, matmul_zero_eq_dotGeneral]
  exact dotGeneral_plain_apply none _ _ p q

end Cert.ReferenceIdeal.Pay

end
-- ==== Proof.RInv.lean ====
/-
  What the scratch and the output block hold after each grid point. The grid is row tiles × vocabulary tiles with the
  vocabulary tile moving fastest, so point `t` works on row tile `t / 50` and vocabulary tile `t % 50`: its block of `x`
  is rows `t / 50 · 1024 …` of the flattened `x`, its block of `w_dense` is all of it, its block of `w_out` is columns
  `t % 50 · 640 …`. The scratch is written only at the first point of a row tile and carried through the tile's other
  points, during which the tile's rows do not change; so after EVERY point it holds the bottleneck projection of the
  point's own row tile (induction on the point), and the output block is always the scratch times the point's block of
  `w_out`.
-/
import proofs.«179955_g2000605752815823_pallasbulk_1286_2_alg».proof.Proof.RPieces
import proofs.«179955_g2000605752815823_pallasbulk_1286_2_alg».proof.Proof.RPay
import proofs.«179955_g2000605752815823_pallasbulk_1286_2_alg».proof.Proof.Spec

noncomputable section

open Idealize.ShloMosaic Idealize.ShloMosaic.TcCoe Idealize.SL.Sem Idealize.ShloMosaic.ValueIdx
open Idealize.ShloMosaic.Pipeline (Dat)

namespace Cert.ReferenceIdeal.Inv

open Cert.ReferenceIdeal Cert.ReferenceIdeal.Gen

variable (m : (ℓ : Loc nD τ sig) → Buf (Elt Ideal) ℓ)

/-- The three arrays as the region finds them, and each window's block at a point, at their literal shapes. -/
abbrev xarr (c : Dev nD) : FVec Ideal S4096x1024 .f32 := V m c main_v0
abbrev darr (c : Dev nD) : FVec Ideal S1024x128 .f32 := V m c main_arg1
abbrev oarr (c : Dev nD) : FVec Ideal S128x32000 .f32 := V m c main_arg2
abbrev xblk (c : Dev nD) (t : Fin cfg0.N) : FVec Ideal S1024x1024 .f32 := iblk m c 0 t
abbrev dblk (c : Dev nD) (t : Fin cfg0.N) : FVec Ideal S1024x128 .f32 := iblk m c 1 t
abbrev oblk (c : Dev nD) (t : Fin cfg0.N) : FVec Ideal S128x640 .f32 := iblk m c 2 t

/-- The index maps, decided over the grid: `x` follows the row tile, `w_dense` stays, `w_out` follows the vocabulary
    tile, the output follows both. -/
theorem idx_facts : ∀ t : Fin cfg0.N, win0_0.index t (0 : Fin 2) = t.val / 50 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 50
    ∧ win0_3.index t (0 : Fin 2) = t.val / 50 ∧ win0_3.index t (1 : Fin 2) = t.val % 50 :=
  (by decide +kernel : ∀ t : Fin grid0.N, _)

/-- Row `p` of the point's block of `x` is row `t / 50 · 1024 + p` of `x`. -/
theorem xblk_apply (c : Dev nD) (t : Fin cfg0.N) (p : Fin 1024) (l : Fin 1024) (r : Fin 4096)
    (hr : r.val = t.val / 50 * 1024 + p.val) : xblk m c t (ix2 p l) = xarr m c (ix2 r l) := by
  obtain ⟨e0, e1, -⟩ := idx_facts t
  show V m c main_v0 (((cfg0.win 0).blk t).view.emb (ix2 p l)) = V m c main_v0 (ix2 r l)
  refine congrArg _ ?_
  funext a; apply Fin.ext
  match a with
  | ⟨0, _⟩ => show win0_0.index t (0 : Fin 2) * 1024 + 1 * p.val = r.val; omega
  | ⟨1, _⟩ => show win0_0.index t (1 : Fin 2) * 1024 + 1 * l.val = l.val; omega

/-- The point's block of `w_dense` is `w_dense`. -/
theorem dblk_apply (c : Dev nD) (t : Fin cfg0.N) (l : Fin 1024) (k : Fin 128) : dblk m c t (ix2 l k) = darr m c (ix2 l k) := by
  obtain ⟨-, -, e0, e1, -⟩ := idx_facts t
  show V m c main_arg1 (((cfg0.win 1).blk t).view.emb (ix2 l k)) = V m c main_arg1 (ix2 l k)
  refine congrArg _ ?_
  funext a; apply Fin.ext
  match a with
  | ⟨0, _⟩ => show win0_1.index t (0 : Fin 2) * 1024 + 1 * l.val = l.val; omega
  | ⟨1, _⟩ => show win0_1.index t (1 : Fin 2) * 128 + 1 * k.val = k.val; omega

/-- Column `q` of the point's block of `w_out` is column `t % 50 · 640 + q` of `w_out`. -/
theorem oblk_apply (c : Dev nD) (t : Fin cfg0.N) (k : Fin 128) (q : Fin 640) (v : Fin 32000)
    (hv : v.val = t.val % 50 * 640 + q.val) : oblk m c t (ix2 k q) = oarr m c (ix2 k v) := by
  obtain ⟨-, -, -, -, e0, e1, -⟩ := idx_facts t
  show V m c main_arg2 (((cfg0.win 2).blk t).view.emb (ix2 k q)) = V m c main_arg2 (ix2 k v)
  refine congrArg _ ?_
  funext a; apply Fin.ext
  match a with
  | ⟨0, _⟩ => show win0_2.index t (0 : Fin 2) * 128 + 1 * k.val = k.val; omega
  | ⟨1, _⟩ => show win0_2.index t (1 : Fin 2) * 640 + 1 * q.val = v.val; omega

/-- At a point that starts a row tile the scratch is left holding the bottleneck projection of that tile's rows. -/
theorem scratch_first (c : Dev nD) (t : Fin cfg0.N) (h0 : t.val % 50 = 0) (p : Fin 1024) (k : Fin 128) (r : Fin 4096)
    (hr : r.val = t.val / 50 * 1024 + p.val) :
    (outsAt0 m c t.val t.isLt).2 (ix2 p k) = Spec.hid (xarr m c) (darr m c) r k := by
  rw [outsAt0_A m c t h0]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)) (ix2 p k)).trans ?_
  refine (Pay.pay1_apply (xblk m c t) (dblk m c t) p k).trans ?_
  unfold Spec.hid
  refine Finset.sum_congr rfl fun l _ => ?_
  rw [xblk_apply m c t p l r hr, dblk_apply m c t l k]

/-- After every point the scratch holds the bottleneck projection of the point's row tile: a point that starts a tile
    stores it, every other point keeps what the point before left, and the tile has not changed. -/
theorem scratch_eq (c : Dev nD) : ∀ (n : ℕ) (h : n < cfg0.N) (p : Fin 1024) (k : Fin 128) (r : Fin 4096),
    r.val = n / 50 * 1024 + p.val → (outsAt0 m c n h).2 (ix2 p k) = Spec.hid (xarr m c) (darr m c) r k := by
  intro n
  induction n with
  | zero => intro h p k r hr; exact scratch_first m c ⟨0, h⟩ rfl p k r hr
  | succ n ih =>
    intro h p k r hr
    by_cases h0 : (n + 1) % 50 = 0
    · exact scratch_first m c ⟨n + 1, h⟩ h0 p k r hr
    · rw [outsAt0_B m c ⟨n + 1, h⟩ h0]
      dsimp only
      unfold sout0_B_0
      exact ih _ p k r (by omega)

/-- At every point the output block is the product of the scratch as the point leaves it with the point's block of
    `w_out`. -/
theorem out_eq (c : Dev nD) (t : Fin cfg0.N) :
    (outsAt0 m c t.val t.isLt).1 = k0_pay2 (F := Ideal) (outsAt0 m c t.val t.isLt).2 (oblk m c t) := by
  by_cases h0 : t.val % 50 = 0
  · rw [outsAt0_A m c t h0]
    dsimp only
    rw [Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)]
    exact Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (dblk m c t) (oblk m c t)
  · rw [outsAt0_B m c t h0]
    dsimp only
    unfold sout0_B_0
    exact Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (dblk m c t) (oblk m c t) _

end Cert.ReferenceIdeal.Inv

end
-- ==== Proof.RFinal.lean ====
/-
  From the blocks to the program's result. Each point writes back block `(t / 50, t % 50)` of the logits of the arrays
  the region finds; those blocks tile the 4096 × 32000 array, so it ends holding the logits. The region finds `x`
  flattened to 4096 rows by the reshape in front of it and the two weight arrays as launched; the reshape behind it
  regroups the rows. So the program's result is the logits of the argument arrays between those two reshapes.
-/
import proofs.«179955_g2000605752815823_pallasbulk_1286_2_alg».proof.Proof.RInv
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.ReferenceIdeal.Final

open Cert.ReferenceIdeal Cert.ReferenceIdeal.Gen Cert.ReferenceIdeal.Inv

variable (m : (ℓ : Loc nD τ sig) → Buf (Elt Ideal) ℓ) (ρ : Dev nD → PrngReg)

/-- The logits of the arrays as the region finds them. -/
abbrev G (c : Dev nD) : FVec Ideal S4096x32000 .f32 := Spec.logits (xarr m c) (darr m c) (oarr m c)

/-- What point `t` writes back is block `t` of the logits: entry `(p, q)` of the block is entry
    `(t / 50 · 1024 + p, t % 50 · 640 + q)` of the array, the sum over the bottleneck axis of the scratch's row `p`
    — the bottleneck projection of that row — times column `q` of the point's block of `w_out`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, out_eq]
  have hN : t.val < 200 := lt_of_lt_of_eq t.isLt (show cfg0.N = 200 from N_0)
  obtain ⟨-, -, -, -, -, -, e0, e1⟩ := idx_facts t
  funext j
  obtain ⟨p, q, rfl⟩ : ∃ (p : Fin 1024) (q : Fin 640), j = ix2 p q := ⟨j 0, j 1, eq_ix2 j⟩
  have hr : t.val / 50 * 1024 + p.val < 4096 := by omega
  have hv : t.val % 50 * 640 + q.val < 32000 := by omega
  have he : ((cfg0.win 3).blk t).view.emb (ix2 p q) = ix2 (⟨t.val / 50 * 1024 + p.val, hr⟩ : Fin 4096) (⟨t.val % 50 * 640 + q.val, hv⟩ : Fin 32000) := by
    funext a; apply Fin.ext
    match a with
    | ⟨0, _⟩ => show win0_3.index t (0 : Fin 2) * 1024 + 1 * p.val = t.val / 50 * 1024 + p.val; omega
    | ⟨1, _⟩ => show win0_3.index t (1 : Fin 2) * 640 + 1 * q.val = t.val % 50 * 640 + q.val; omega
  show k0_pay2 (F := Ideal) (outsAt0 m c t.val t.isLt).2 (oblk m c t) (ix2 p q) = G m c (((cfg0.win 3).blk t).view.emb (ix2 p q))
  rw [he, Pay.pay2_apply]
  show _ = ∑ k : Fin 128, Spec.hid (xarr m c) (darr m c) ⟨t.val / 50 * 1024 + p.val, hr⟩ k * oarr m c (ix2 k ⟨t.val % 50 * 640 + q.val, hv⟩)
  refine Finset.sum_congr rfl fun k _ => ?_
  rw [scratch_eq m c t.val t.isLt p k ⟨t.val / 50 * 1024 + p.val, hr⟩ rfl, oblk_apply m c t k q ⟨t.val % 50 * 640 + q.val, hv⟩ rfl]

/-- An index of the array is in point `t`'s block iff each coordinate is in the block's range on its axis. -/
theorem mem_blk (t : Fin cfg0.N) (i : S4096x32000.Idx) :
    i ∈ ((cfg0.win 3).blk t).view.set ↔ ∀ a : Fin 2, win0_3.index t a * S1024x640.size a ≤ (i a).val ∧ (i a).val < win0_3.index t a * S1024x640.size a + S1024x640.size a := by
  show i ∈ ((View.whole main_v1).slice (win0_3.rect t)).set ↔ _
  rw [View.set_slice_whole, Rect.mem_set_unit]
  exact Iff.rfl

/-- The blocks tile the array: entry `(r, v)` is in the block of the point `(r / 1024) · 50 + v / 640`. -/
theorem cover (i : S4096x32000.Idx) : ∃ t : Fin cfg0.N, (cfg0.win 3).flush t = true ∧ i ∈ ((cfg0.win 3).blk t).view.set := by
  have hi0 : (i 0).val < 4096 := (i 0).isLt
  have hi1 : (i 1).val < 32000 := (i 1).isLt
  have hN : cfg0.N = 200 := N_0
  have hlt : (i 0).val / 1024 * 50 + (i 1).val / 640 < cfg0.N := by rw [hN]; omega
  refine ⟨⟨(i 0).val / 1024 * 50 + (i 1).val / 640, hlt⟩, flush0_3 _, ?_⟩
  rw [mem_blk]
  obtain ⟨-, -, -, -, -, -, e0, e1⟩ := idx_facts ⟨(i 0).val / 1024 * 50 + (i 1).val / 640, hlt⟩
  dsimp only at e0 e1
  intro a
  match a with
  | ⟨0, _⟩ =>
    show win0_3.index ⟨(i 0).val / 1024 * 50 + (i 1).val / 640, hlt⟩ (0 : Fin 2) * 1024 ≤ (i 0).val ∧ (i 0).val < win0_3.index ⟨(i 0).val / 1024 * 50 + (i 1).val / 640, hlt⟩ (0 : Fin 2) * 1024 + 1024
    omega
  | ⟨1, _⟩ =>
    show win0_3.index ⟨(i 0).val / 1024 * 50 + (i 1).val / 640, hlt⟩ (1 : Fin 2) * 640 ≤ (i 1).val ∧ (i 1).val < win0_3.index ⟨(i 0).val / 1024 * 50 + (i 1).val / 640, hlt⟩ (1 : Fin 2) * 640 + 640
    omega

/-- So the region's result array ends holding the logits. -/
theorem final (c : Dev nD) : (dats m 0 c).arrAt 3 cfg0.N = G m c :=
  (dats m 0 c).arrAt_eq_of_cover 3 (G m c) (fun t _ => flushed_eq m c t) cover

/-- The region finds `x` flattened to its rows by the reshape in front of it. -/
theorem xarr_eq (c : Dev nD) : xarr m c = shapeCast S4096x1024 (m ((c : Thread nD τ).loc main_arg0)) shapeCasts_S8x512x1024_S4096x1024 := by
  show StableHlo.after hostOps0 (fun b => m (c, b)) (Proc.devRef .tc main_v0) = _
  after_results
  rfl

/-- The reshape behind the region regroups the rows of what the region left. -/
theorem tail_eq (c : Dev nD) : Pipeline.afterTail₀ cfgs (dats m) 0 (V0 m) [hostOps1] c main_v2
    = shapeCast S8x512x32000 (G m c) shapeCasts_S4096x32000_S8x512x32000 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1) = G m c :=
    (Pipeline.withArrays_arr spec0 launch0.win.arr_inj c _ _ 3).trans (final m c)
  rw [hw]
  rfl

/-- The logits of the argument arrays, laid out as the program returns them: `x` flattened to its rows, the two
    projections, the rows regrouped. -/
abbrev result (c : Dev nD) : Buf (Elt Ideal) ((c : Thread nD τ).loc main_v2) :=
  shapeCast S8x512x32000 (Spec.logits (shapeCast S4096x1024 (m ((c : Thread nD τ).loc main_arg0)) shapeCasts_S8x512x1024_S4096x1024)
    (m ((c : Thread nD τ).loc main_arg1)) (m ((c : Thread nD τ).loc main_arg2))) shapeCasts_S4096x32000_S8x512x32000

/-- The arrays the region finds, in terms of the arguments. -/
theorem G_eq (c : Dev nD) : shapeCast S8x512x32000 (G m c) shapeCasts_S4096x32000_S8x512x32000 = result m c := by
  show shapeCast S8x512x32000 (Spec.logits (xarr m c) (darr m c) (oarr m c)) _ = _
  rw [xarr_eq, show darr m c = m ((c : Thread nD τ).loc main_arg1) from V_main_arg1 m c,
    show oarr m c = m ((c : Thread nD τ).loc main_arg2) from V_main_arg2 m c]

/-- The run, read: the result at the logits of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans ((tail_eq m c).trans (G_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Final

end
-- ==== Proof.lean ====
/-
  The factorized output projection `reshape(x) · w_dense · w_out` computed by one fused kernel over a grid of
  row tiles × vocabulary tiles, at two tilings: the kernel's (2048-row tiles, 1280-column tiles, bf16 operands) and the
  reference's (1024-row tiles, 640-column tiles, f32 operands). Each keeps the bottleneck projection of the current
  row tile in a scratch, written at the tile's first point and reused at its other points, and writes one block of
  the logits per point.

  Over the extended reals a change of float format is the identity and a matrix product into a zero accumulator is
  the plain sum over the contracted axis, so both programs' results are, entry by entry,
  `∑ k, (∑ l, x(r, l) · w_dense(l, k)) · w_out(k, v)` — the same sums in the same order, whatever the tiling — between
  the same two reshapes of `x`'s rows. No law that needs finite entries is used. The idealization rewrote nothing, and
  each program's run (termination, no fault, arguments unchanged) is its generated frame.
-/
import proofs.«179955_g2000605752815823_pallasbulk_1286_2_alg».proof.Defs
import proofs.«179955_g2000605752815823_pallasbulk_1286_2_alg».proof.Proof.Gen.Kernel
import proofs.«179955_g2000605752815823_pallasbulk_1286_2_alg».proof.Proof.Gen.Kernel.Skeleton
import proofs.«179955_g2000605752815823_pallasbulk_1286_2_alg».proof.Proof.Gen.Kernel.Launch
import proofs.«179955_g2000605752815823_pallasbulk_1286_2_alg».proof.Proof.Gen.Kernel.Points
import proofs.«179955_g2000605752815823_pallasbulk_1286_2_alg».proof.Proof.Gen.Kernel.Frame
import proofs.«179955_g2000605752815823_pallasbulk_1286_2_alg».proof.Proof.Gen.KernelIdeal
import proofs.«179955_g2000605752815823_pallasbulk_1286_2_alg».proof.Proof.Gen.KernelIdeal.Skeleton
import proofs.«179955_g2000605752815823_pallasbulk_1286_2_alg».proof.Proof.Gen.KernelIdeal.Launch
import proofs.«179955_g2000605752815823_pallasbulk_1286_2_alg».proof.Proof.Gen.KernelIdeal.Points
import proofs.«179955_g2000605752815823_pallasbulk_1286_2_alg».proof.Proof.Gen.KernelIdeal.Frame
import proofs.«179955_g2000605752815823_pallasbulk_1286_2_alg».proof.Proof.Gen.ReferenceIdeal
import proofs.«179955_g2000605752815823_pallasbulk_1286_2_alg».proof.Proof.Gen.ReferenceIdeal.Skeleton
import proofs.«179955_g2000605752815823_pallasbulk_1286_2_alg».proof.Proof.Gen.ReferenceIdeal.Launch
import proofs.«179955_g2000605752815823_pallasbulk_1286_2_alg».proof.Proof.Gen.ReferenceIdeal.Points
import proofs.«179955_g2000605752815823_pallasbulk_1286_2_alg».proof.Proof.Gen.ReferenceIdeal.Frame
import proofs.«179955_g2000605752815823_pallasbulk_1286_2_alg».proof.Proof.Gen.Pre_finite_inputs
import proofs.«179955_g2000605752815823_pallasbulk_1286_2_alg».proof.Proof.KFinal
import proofs.«179955_g2000605752815823_pallasbulk_1286_2_alg».proof.Proof.RFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization's ledger is empty. -/
theorem preserves : Cert.preserves_Kernel_KernelIdeal := trivial

/-- Both programs end with their result at the logits of their argument arrays, regrouped by the same reshape; the
    argument arrays agree, so the results are equal entry by entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Final.run m' ρ')
  unfold Cert.ReferenceIdeal.Final.result Cert.KernelIdeal.Final.result
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
